-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x8192 : Shape := ⟨2, ![2048, 8192]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S2048x8192 .f32) (main_arg5 : FVec F S8192 .f32) (main_arg6 : FVec F S8192 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S2048x8192 .f32) (main_arg4 : FVec F S2048x8192 .f32) (main_arg5 : FVec F S8192 .f32) (main_arg6 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_arg5 main_arg6 main_v13 main_v16
-- ==== Kernel.lean ====
abbrev S4096x2048 : Shape := ⟨2, ![4096, 2048]⟩
abbrev S2048x8192 : Shape := ⟨2, ![2048, 8192]⟩
abbrev S8192 : Shape := ⟨1, ![8192]⟩
abbrev S1x8192 : Shape := ⟨2, ![1, 8192]⟩
abbrev S256x256 : Shape := ⟨2, ![256, 256]⟩
abbrev S256x8192 : Shape := ⟨2, ![256, 8192]⟩
abbrev S256x2048 : Shape := ⟨2, ![256, 2048]⟩

abbrev nBuf : Space → Nat
  | .hbm => 15
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x8192, .f32⟩
  | .hbm, ⟨4, _⟩ => ⟨S2048x8192, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S1x8192, .f32⟩
  | .hbm, ⟨9, _⟩ => ⟨S4096x2048, .bf16⟩
  | .hbm, ⟨10, _⟩ => ⟨S4096x2048, .bf16⟩
  | .hbm, ⟨11, _⟩ => ⟨S2048x8192, .bf16⟩
  | .hbm, ⟨12, _⟩ => ⟨S2048x8192, .bf16⟩
  | .hbm, ⟨13, _⟩ => ⟨S4096x2048, .f32⟩
  | .hbm, ⟨14, _⟩ => ⟨S4096x2048, .f32⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x8192, .bf16⟩
  | .local _ .vmem, ⟨5, _⟩ => ⟨S256x8192, .bf16⟩
  | .local _ .vmem, ⟨6, _⟩ => ⟨S256x8192, .bf16⟩
  | .local _ .vmem, ⟨7, _⟩ => ⟨S256x8192, .bf16⟩
  | .local _ .vmem, ⟨8, _⟩ => ⟨S1x8192, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x8192, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S8192_S1x8192 : S8192.ShapeCasts S1x8192
  bitsLt_bf16_f32 : FTy.bits .bf16 < FTy.bits .f32
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S256x8192_o0_0_S256x2048 : S256x8192.Slices ![0, 0] S256x2048
  slices_S256x8192_o0_2048_S256x2048 : S256x8192.Slices ![0, 2048] S256x2048
  slices_S256x8192_o0_4096_S256x2048 : S256x8192.Slices ![0, 4096] S256x2048
  slices_S256x8192_o0_6144_S256x2048 : S256x8192.Slices ![0, 6144] S256x2048
  inb_S256x2048_S256x2048_0_0 : ∀ a, (![0, 0] : Fin 2 → Nat) a + S256x2048.size a ≤ S256x2048.size a
  h_S256x2048 : 0 < S256x2048.numel
  dot_S256x256_S256x8192_S256x8192_1_0_0_1_n_n_wf : DotDims.WF S256x256 S256x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x2048.size a
  hwx0_0 : ∀ i : grid0.Coords, EltTy.bits .bf16 = 32 ∨ (Rect.block (s := S4096x2048) S256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S4096x2048.size a
  hwx0_1 : ∀ i : grid0.Coords, EltTy.bits .bf16 = 32 ∨ (Rect.block (s := S4096x2048) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S2048x8192.size a
  hwx0_2 : ∀ i : grid0.Coords, EltTy.bits .bf16 = 32 ∨ (Rect.block (s := S2048x8192) S256x8192.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S2048x8192.size a
  hwx0_3 : ∀ i : grid0.Coords, EltTy.bits .bf16 = 32 ∨ (Rect.block (s := S2048x8192) S256x8192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .f32 = 32 ∨ (Rect.block (s := S4096x2048) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S4096x2048.size a
  hwx0_6 : ∀ i : grid0.Coords, EltTy.bits .f32 = 32 ∨ (Rect.block (s := S4096x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S4096x2048.size a
  hwx0_7 : ∀ i : grid0.Coords, EltTy.bits .f32 = 32 ∨ (Rect.block (s := S4096x2048) S256x2048.size (cc0_transform_7 i) (hinb0_7 i)).WholeWords (EltTy.packing .f32)

variable [Facts₀]

def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf

abbrev win0_0 : Pipeline.Window sig grid0 :=
  Pipeline.Window.ofSpec (Memref.whole main_v2) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x8192 : Shape := ⟨2, ![2048, 8192]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x8192, .f32⟩
  | .hbm, ⟨4, _⟩ => ⟨S2048x8192, .f32⟩
  | .hbm, ⟨5, _⟩ => ⟨S8192, .f32⟩
  | .hbm, ⟨6, _⟩ => ⟨S8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S1x8192, .f32⟩
  | .hbm, ⟨11, _⟩ => ⟨S4096x8192, .f32⟩
  | .hbm, ⟨12, _⟩ => ⟨S4096x8192, .f32⟩
  | .hbm, ⟨13, _⟩ => ⟨S1x8192, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.LstmSpec.lean ====
/-
  The mathematics of one LSTM cell step, stated over the extended reals with no program in sight.

  The four gate pre-activations of batch row `b` form one row of length 8192:
  `gate b n = x[b,:]·W_i[:,n] + h[b,:]·W_h[:,n] + b_i[n] + b_h[n]`.
  Columns `0 … 2047` feed the input gate, `2048 … 4095` the forget gate, `4096 … 6143` the candidate and
  `6144 … 8191` the output gate:
  `c' = σ(f)·c + σ(i)·tanh(g)`, `h' = σ(o)·tanh(c')`.

  Two arrangements of the same pre-activation are compared. One takes each inner product over all 2048 terms at
  once and then adds the two bias vectors one after the other. The other starts from the sum of the two biases and
  adds, for each of the eight consecutive stretches of 256 terms, the two partial inner products over that stretch.
  Addition on the extended reals is commutative and associative, so the two agree at every input, infinite ones
  included: no finiteness is used.
-/
import Idealize.ShloMosaic.PureOps.Ideal
import Idealize.ShloMosaic.Lib.ValueIdx
import Mathlib.Algebra.BigOperators.Fin
import Mathlib.Logic.Equiv.Fin.Basic

noncomputable section

namespace Cert.LstmSpec

open Idealize.ShloMosaic Idealize.ShloMosaic.ValueIdx

/-- A sum over `m * n` consecutive terms, taken stretch by stretch: `m` stretches of `n` terms each. -/
theorem sum_stretches {M : Type*} [AddCommMonoid M] (m n : ℕ) (f : Fin (m * n) → M) :
    ∑ d, f d = ∑ s : Fin m, ∑ j : Fin n, f (finProdFinEquiv (s, j)) := by
  rw [← Equiv.sum_comp finProdFinEquiv f, Fintype.sum_prod_type]

/-- Term `j` of stretch `s` when 2048 terms are cut into eight stretches of 256. -/
abbrev term (s : Fin 8) (j : Fin 256) : Fin 2048 := ⟨256 * s.val + j.val, by omega⟩

/-- The 2048-term sum as eight stretches of 256 terms. -/
theorem sum_2048 {M : Type*} [AddCommMonoid M] (f : Fin 2048 → M) :
    ∑ d, f d = ∑ s : Fin 8, ∑ j : Fin 256, f (term s j) := by
  refine (sum_stretches 8 256 f).trans ?_
  refine Finset.sum_congr rfl fun s _ => Finset.sum_congr rfl fun j _ => congrArg f ?_
  apply Fin.ext
  show j.val + 256 * s.val = 256 * s.val + j.val
  omega

abbrev Act := (⟨2, ![4096, 2048]⟩ : Shape).Idx → EReal
abbrev Wt := (⟨2, ![2048, 8192]⟩ : Shape).Idx → EReal
abbrev Bias := (⟨1, ![8192]⟩ : Shape).Idx → EReal

/-- The pre-activation with each inner product taken whole and the biases added one after the other. -/
def gateWhole (X Hd : Act) (Wi Wh : Wt) (bi bh : Bias) (b : Fin 4096) (n : Fin 8192) : EReal :=
  ((∑ d : Fin 2048, X (ix2 b d) * Wi (ix2 d n)) + (∑ d : Fin 2048, Hd (ix2 b d) * Wh (ix2 d n)))
    + bi (ix1 n) + bh (ix1 n)

/-- What stretch `s` contributes to the pre-activation: the two partial inner products over its 256 terms. -/
def stretchTerm (X Hd : Act) (Wi Wh : Wt) (b : Fin 4096) (n : Fin 8192) (s : Fin 8) : EReal :=
  (∑ j : Fin 256, X (ix2 b (term s j)) * Wi (ix2 (term s j) n))
    + (∑ j : Fin 256, Hd (ix2 b (term s j)) * Wh (ix2 (term s j) n))

/-- The pre-activation accumulated stretch by stretch on top of the summed biases. -/
def gateStretched (X Hd : Act) (Wi Wh : Wt) (bi bh : Bias) (b : Fin 4096) (n : Fin 8192) : EReal :=
  (bi (ix1 n) + bh (ix1 n)) + ∑ s : Fin 8, stretchTerm X Hd Wi Wh b n s

/-- The two arrangements are one number. -/
theorem gateStretched_eq_gateWhole (X Hd : Act) (Wi Wh : Wt) (bi bh : Bias) (b : Fin 4096) (n : Fin 8192) :
    gateStretched X Hd Wi Wh bi bh b n = gateWhole X Hd Wi Wh bi bh b n := by
  unfold gateStretched gateWhole stretchTerm
  rw [Finset.sum_add_distrib, ← sum_2048 (fun d => X (ix2 b d) * Wi (ix2 d n)),
    ← sum_2048 (fun d => Hd (ix2 b d) * Wh (ix2 d n))]
  abel

/-- Column `off + h` of a gate row, for the four quarters `off = 0, 2048, 4096, 6144`. -/
abbrev col (off : ℕ) (hoff : off + 2048 ≤ 8192) (h : Fin 2048) : Fin 8192 := ⟨off + h.val, by omega⟩

/-- The new cell state from a gate row and the old cell state. -/
def cellOf (g : Fin 8192 → EReal) (c : EReal) (h : Fin 2048) : EReal :=
  Ideal.logistic (g (col 2048 (by omega) h)) * c
    + Ideal.logistic (g (col 0 (by omega) h)) * Ideal.tanh (g (col 4096 (by omega) h))

/-- The new hidden state from a gate row and the old cell state. -/
def hiddenOf (g : Fin 8192 → EReal) (c : EReal) (h : Fin 2048) : EReal :=
  Ideal.logistic (g (col 6144 (by omega) h)) * Ideal.tanh (cellOf g c h)

/-- The new cell state array of the whole batch. -/
def cellArr (X Hd C : Act) (Wi Wh : Wt) (bi bh : Bias) : Act := fun i =>
  cellOf (gateWhole X Hd Wi Wh bi bh (i 0)) (C i) (i 1)

/-- The new hidden state array of the whole batch. -/
def hiddenArr (X Hd C : Act) (Wi Wh : Wt) (bi bh : Bias) : Act := fun i =>
  hiddenOf (gateWhole X Hd Wi Wh bi bh (i 0)) (C i) (i 1)

end Cert.LstmSpec

end
-- ==== Proof.BodyPieces.lean ====
/-
  What one run of the kernel body leaves behind, as values.

  The body keeps a running gate tile in a scratch buffer. At the first reduction step it overwrites the scratch
  with the bias row repeated down the 256 rows and adds that step's two partial matrix products; at every later
  step it adds the step's two partial products to what the scratch held; at the last step it also turns the
  finished gate tile into the new hidden state and the new cell state of the tile. Each statement below names the
  contents of one buffer after the body as one arithmetic term of the input tiles (and, from the second step on,
  of what the scratch held before).
-/
import proofs.«165249_j54649163874591_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First reduction step: the scratch ends at the repeated bias row plus the step's two partial products. -/
theorem scratch_first (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x8192 .bf16) (harg4 : arg4.IsWhole) (arg5 : Memref sig .tc .vmem S256x8192 .bf16) (harg5 : arg5.IsWhole) (arg6 : Memref sig .tc .vmem S1x8192 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x8192 .f32) (harg10 : arg10.IsWhole) (hc0 : cond0_0 i) (hc1 : ¬cond0_1 i)
    (x0 : Vec F S256x256 .bf16) (x1 : Vec F S256x256 .bf16) (x2 : Vec F S256x8192 .bf16) (x3 : Vec F S256x8192 .bf16) (x4 : Vec F S1x8192 .f32) (x5 : Vec F S256x2048 .f32) :
    sout0_A_0 c i arg2 harg2 arg3 harg3 arg4 harg4 arg5 harg5 arg6 harg6 arg7 harg7 arg8 harg8 arg9 harg9 arg10 harg10 hc0 hc1 x0 x1 x2 x3 x4 x5 = k0_pay2 (k0_pay1 x4) x0 x2 x1 x3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S256x8192) hz]
  simp only [View.readAt_eq_ld, harg2.read_unread, harg3.read_unread, harg4.read_unread, harg5.read_unread, harg6.read_unread, harg7.read_unread, harg10.read_unread, View.ld_unit_zero (S := S256x8192) hz, View.ld_unit_zero (S := S256x256) hz, View.ld_unit_zero (S := S1x8192) hz, View.ld_unit_zero (S := S256x2048) hz, View.readCov_unit_zero (S := S256x8192) _ hz]

/-- A middle reduction step: the scratch ends at what it held plus the step's two partial products. -/
theorem scratch_middle (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x8192 .bf16) (harg4 : arg4.IsWhole) (arg5 : Memref sig .tc .vmem S256x8192 .bf16) (harg5 : arg5.IsWhole) (arg6 : Memref sig .tc .vmem S1x8192 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x8192 .f32) (harg10 : arg10.IsWhole) (hc0 : ¬cond0_0 i) (hc1 : ¬cond0_1 i)
    (x0 : Vec F S256x256 .bf16) (x1 : Vec F S256x256 .bf16) (x2 : Vec F S256x8192 .bf16) (x3 : Vec F S256x8192 .bf16) (x4 : Vec F S1x8192 .f32) (x5 : Vec F S256x2048 .f32) (xs0 : Vec F S256x8192 .f32) :
    sout0_B_0 c i arg2 harg2 arg3 harg3 arg4 harg4 arg5 harg5 arg6 harg6 arg7 harg7 arg8 harg8 arg9 harg9 arg10 harg10 hc0 hc1 x0 x1 x2 x3 x4 x5 xs0 = k0_pay2 xs0 x0 x2 x1 x3 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg10.read_unread, View.ld_unit_zero (S := S256x8192) hz, View.ld_unit_zero (S := S256x256) hz, View.ld_unit_zero (S := S1x8192) hz, View.ld_unit_zero (S := S256x2048) hz, View.readCov_unit_zero (S := S256x8192) _ hz]

/-- The last reduction step: the scratch again ends at what it held plus the step's two partial products, -/
theorem scratch_last (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x8192 .bf16) (harg4 : arg4.IsWhole) (arg5 : Memref sig .tc .vmem S256x8192 .bf16) (harg5 : arg5.IsWhole) (arg6 : Memref sig .tc .vmem S1x8192 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x8192 .f32) (harg10 : arg10.IsWhole) (hc0 : ¬cond0_0 i) (hc1 : cond0_1 i)
    (x0 : Vec F S256x256 .bf16) (x1 : Vec F S256x256 .bf16) (x2 : Vec F S256x8192 .bf16) (x3 : Vec F S256x8192 .bf16) (x4 : Vec F S1x8192 .f32) (x5 : Vec F S256x2048 .f32) (xs0 : Vec F S256x8192 .f32) :
    sout0_C_0 c i arg2 harg2 arg3 harg3 arg4 harg4 arg5 harg5 arg6 harg6 arg7 harg7 arg8 harg8 arg9 harg9 arg10 harg10 hc0 hc1 x0 x1 x2 x3 x4 x5 xs0 = k0_pay2 xs0 x0 x2 x1 x3 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, View.ld_unit_zero (S := S256x8192) hz, View.ld_unit_zero (S := S256x256) hz, View.ld_unit_zero (S := S1x8192) hz, View.ld_unit_zero (S := S256x2048) hz, View.readCov_unit_zero (S := S256x8192) _ hz]

/-- the hidden-state tile is the output gate times tanh of the new cell state, both from that finished gate tile, -/
theorem hidden_last (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x8192 .bf16) (harg4 : arg4.IsWhole) (arg5 : Memref sig .tc .vmem S256x8192 .bf16) (harg5 : arg5.IsWhole) (arg6 : Memref sig .tc .vmem S1x8192 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x8192 .f32) (harg10 : arg10.IsWhole) (hc0 : ¬cond0_0 i) (hc1 : cond0_1 i)
    (x0 : Vec F S256x256 .bf16) (x1 : Vec F S256x256 .bf16) (x2 : Vec F S256x8192 .bf16) (x3 : Vec F S256x8192 .bf16) (x4 : Vec F S1x8192 .f32) (x5 : Vec F S256x2048 .f32) (xs0 : Vec F S256x8192 .f32) :
    out0_C_6 c i arg2 harg2 arg3 harg3 arg4 harg4 arg5 harg5 arg6 harg6 arg7 harg7 arg8 harg8 arg9 harg9 arg10 harg10 hc0 hc1 x0 x1 x2 x3 x4 x5 xs0 = k0_pay4 (k0_pay2 xs0 x0 x2 x1 x3) x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, View.ld_unit_zero (S := S256x8192) hz, View.ld_unit_zero (S := S256x256) hz, View.ld_unit_zero (S := S1x8192) hz, View.ld_unit_zero (S := S256x2048) hz, View.readCov_unit_zero (S := S256x8192) _ hz]

/-- and the cell-state tile is forget gate times old cell state plus input gate times candidate. -/
theorem cell_last (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x8192 .bf16) (harg4 : arg4.IsWhole) (arg5 : Memref sig .tc .vmem S256x8192 .bf16) (harg5 : arg5.IsWhole) (arg6 : Memref sig .tc .vmem S1x8192 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S256x8192 .f32) (harg10 : arg10.IsWhole) (hc0 : ¬cond0_0 i) (hc1 : cond0_1 i)
    (x0 : Vec F S256x256 .bf16) (x1 : Vec F S256x256 .bf16) (x2 : Vec F S256x8192 .bf16) (x3 : Vec F S256x8192 .bf16) (x4 : Vec F S1x8192 .f32) (x5 : Vec F S256x2048 .f32) (xs0 : Vec F S256x8192 .f32) :
    out0_C_7 c i arg2 harg2 arg3 harg3 arg4 harg4 arg5 harg5 arg6 harg6 arg7 harg7 arg8 harg8 arg9 harg9 arg10 harg10 hc0 hc1 x0 x1 x2 x3 x4 x5 xs0 = k0_pay3 (k0_pay2 xs0 x0 x2 x1 x3) x5 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, View.ld_unit_zero (S := S256x8192) hz, View.ld_unit_zero (S := S256x256) hz, View.ld_unit_zero (S := S1x8192) hz, View.ld_unit_zero (S := S256x2048) hz, View.readCov_unit_zero (S := S256x8192) _ hz]

end Cert.KernelIdeal.Pieces

end
-- ==== Proof.Tiles.lean ====
/-
  Which entries of the argument arrays each tile of the kernel holds.

  The grid has 16 × 8 points; point `t` works on batch-row tile `t / 8` and reduction stretch `t % 8`. Its
  activation tiles are rows `256·(t/8) …` and columns `256·(t%8) …` of `x` and `h`; its weight tiles are rows
  `256·(t%8) …` of `W_i` and `W_h`, all 8192 columns; the bias tile is the single row `b_i + b_h`; the cell-state
  tile is rows `256·(t/8) …` of `c`. The arrays the kernel stages were written by the operations in front of it:
  the four matrix operands are the arguments with their format changed (the identity on the extended reals), the
  bias row is the sum of the two bias vectors viewed as one row.
-/
import proofs.«165249_j54649163874591_1_alg».proof.Proof.Gen.KernelIdeal.Frame
import proofs.«165249_j54649163874591_1_alg».proof.Proof.LstmSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

/-- Where each window's tile sits at point `t`, decided once over the 128 points. -/
theorem tile_pos : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val % 8 ∧ win0_2.index t (1 : Fin 2) = 0
    ∧ win0_3.index t (0 : Fin 2) = t.val % 8 ∧ win0_3.index t (1 : Fin 2) = 0
    ∧ win0_4.index t (0 : Fin 2) = 0 ∧ win0_4.index t (1 : Fin 2) = 0
    ∧ win0_5.index t (0 : Fin 2) = t.val / 8 ∧ win0_5.index t (1 : Fin 2) = 0
    ∧ win0_6.index t (0 : Fin 2) = t.val / 8 ∧ win0_6.index t (1 : Fin 2) = 0
    ∧ win0_7.index t (0 : Fin 2) = t.val / 8 ∧ win0_7.index t (1 : Fin 2) = 0 :=
  (by decide +kernel : ∀ t : Fin grid0.N, _)

/-! ## The staged arrays, as the operations in front of the kernel left them -/

section Staged

variable {F : FTy → Type} [FloatOps F]
variable (m : (ℓ : Loc nD τ sig) → Buf (Elt F) ℓ)

theorem staged_x (c : Dev nD) : (V m c main_v2 : Vec F S4096x2048 .bf16) = truncf .bf16 (m ((c : Thread nD τ).loc main_arg0)) bitsLt_bf16_f32 := by
  dsimp only [Gen.V, Gen.hostOps0]
  after_results
  try rfl

theorem staged_h (c : Dev nD) : (V m c main_v3 : Vec F S4096x2048 .bf16) = truncf .bf16 (m ((c : Thread nD τ).loc main_arg1)) bitsLt_bf16_f32 := by
  dsimp only [Gen.V, Gen.hostOps0]
  after_results
  try rfl

theorem staged_wi (c : Dev nD) : (V m c main_v4 : Vec F S2048x8192 .bf16) = truncf .bf16 (m ((c : Thread nD τ).loc main_arg3)) bitsLt_bf16_f32 := by
  dsimp only [Gen.V, Gen.hostOps0]
  after_results
  try rfl

theorem staged_wh (c : Dev nD) : (V m c main_v5 : Vec F S2048x8192 .bf16) = truncf .bf16 (m ((c : Thread nD τ).loc main_arg4)) bitsLt_bf16_f32 := by
  dsimp only [Gen.V, Gen.hostOps0]
  after_results
  try rfl

theorem staged_bias (c : Dev nD) : (V m c main_v1 : Vec F S1x8192 .f32)
    = shapeCast S1x8192 (addf (m ((c : Thread nD τ).loc main_arg5)) (m ((c : Thread nD τ).loc main_arg6))) shapeCasts_S8192_S1x8192 := by
  dsimp only [Gen.V, Gen.hostOps0]
  after_results
  try rfl

end Staged

/-! ## The tiles at a point, entry by entry -/

variable (m : (ℓ : Loc nD τ sig) → Buf (Elt Ideal) ℓ)

/-- The seven argument arrays on device `c`, as arrays of extended reals. -/
abbrev aX (c : Dev nD) : Cert.LstmSpec.Act := m ((c : Thread nD τ).loc main_arg0)
abbrev aH (c : Dev nD) : Cert.LstmSpec.Act := m ((c : Thread nD τ).loc main_arg1)
abbrev aC (c : Dev nD) : Cert.LstmSpec.Act := m ((c : Thread nD τ).loc main_arg2)
abbrev aWi (c : Dev nD) : Cert.LstmSpec.Wt := m ((c : Thread nD τ).loc main_arg3)
abbrev aWh (c : Dev nD) : Cert.LstmSpec.Wt := m ((c : Thread nD τ).loc main_arg4)
abbrev aBi (c : Dev nD) : Cert.LstmSpec.Bias := m ((c : Thread nD τ).loc main_arg5)
abbrev aBh (c : Dev nD) : Cert.LstmSpec.Bias := m ((c : Thread nD τ).loc main_arg6)

/-- The `x` tile: entry `(r, j)` is `x[256·(t/8) + r, 256·(t%8) + j]`. -/
theorem x_tile (c : Dev nD) (t : Fin cfg0.N) (r j : Fin 256) (R : Fin 4096) (D : Fin 2048)
    (hR : R.val = 256 * (t.val / 8) + r.val) (hD : D.val = 256 * (t.val % 8) + j.val) :
    (iblk m c 0 t : Vec Ideal S256x256 .bf16) (ix2 r j) = aX m c (ix2 R D) := by
  unfold iblk
  rw [View.read_apply]
  show (V m c main_v2 : Vec Ideal S4096x2048 .bf16) (((cfg0.win 0).blk t).view.emb (ix2 r j)) = _
  rw [staged_x]
  show m ((c : Thread nD τ).loc main_arg0) (((cfg0.win 0).blk t).view.emb (ix2 r j)) = _
  refine congrArg _ (funext fun a => Fin.ext ?_)
  obtain ⟨e0, e1, -⟩ := tile_pos t
  match a with
  | ⟨0, _⟩ => show win0_0.index t (0 : Fin 2) * 256 + 1 * r.val = R.val; rw [e0, hR]; omega
  | ⟨1, _⟩ => show win0_0.index t (1 : Fin 2) * 256 + 1 * j.val = D.val; rw [e1, hD]; omega

/-- The `h` tile likewise. -/
theorem h_tile (c : Dev nD) (t : Fin cfg0.N) (r j : Fin 256) (R : Fin 4096) (D : Fin 2048)
    (hR : R.val = 256 * (t.val / 8) + r.val) (hD : D.val = 256 * (t.val % 8) + j.val) :
    (iblk m c 1 t : Vec Ideal S256x256 .bf16) (ix2 r j) = aH m c (ix2 R D) := by
  unfold iblk
  rw [View.read_apply]
  show (V m c main_v3 : Vec Ideal S4096x2048 .bf16) (((cfg0.win 1).blk t).view.emb (ix2 r j)) = _
  rw [staged_h]
  show m ((c : Thread nD τ).loc main_arg1) (((cfg0.win 1).blk t).view.emb (ix2 r j)) = _
  refine congrArg _ (funext fun a => Fin.ext ?_)
  obtain ⟨-, -, e0, e1, -⟩ := tile_pos t
  match a with
  | ⟨0, _⟩ => show win0_1.index t (0 : Fin 2) * 256 + 1 * r.val = R.val; rw [e0, hR]; omega
  | ⟨1, _⟩ => show win0_1.index t (1 : Fin 2) * 256 + 1 * j.val = D.val; rw [e1, hD]; omega

/-- The `W_i` tile: entry `(j, n)` is `W_i[256·(t%8) + j, n]`. -/
theorem wi_tile (c : Dev nD) (t : Fin cfg0.N) (j : Fin 256) (n : Fin 8192) (D : Fin 2048)
    (hD : D.val = 256 * (t.val % 8) + j.val) :
    (iblk m c 2 t : Vec Ideal S256x8192 .bf16) (ix2 j n) = aWi m c (ix2 D n) := by
  unfold iblk
  rw [View.read_apply]
  show (V m c main_v4 : Vec Ideal S2048x8192 .bf16) (((cfg0.win 2).blk t).view.emb (ix2 j n)) = _
  rw [staged_wi]
  show m ((c : Thread nD τ).loc main_arg3) (((cfg0.win 2).blk t).view.emb (ix2 j n)) = _
  refine congrArg _ (funext fun a => Fin.ext ?_)
  obtain ⟨-, -, -, -, e0, e1, -⟩ := tile_pos t
  match a with
  | ⟨0, _⟩ => show win0_2.index t (0 : Fin 2) * 256 + 1 * j.val = D.val; rw [e0, hD]; omega
  | ⟨1, _⟩ => show win0_2.index t (1 : Fin 2) * 8192 + 1 * n.val = n.val; rw [e1]; omega

/-- The `W_h` tile likewise. -/
theorem wh_tile (c : Dev nD) (t : Fin cfg0.N) (j : Fin 256) (n : Fin 8192) (D : Fin 2048)
    (hD : D.val = 256 * (t.val % 8) + j.val) :
    (iblk m c 3 t : Vec Ideal S256x8192 .bf16) (ix2 j n) = aWh m c (ix2 D n) := by
  unfold iblk
  rw [View.read_apply]
  show (V m c main_v5 : Vec Ideal S2048x8192 .bf16) (((cfg0.win 3).blk t).view.emb (ix2 j n)) = _
  rw [staged_wh]
  show m ((c : Thread nD τ).loc main_arg4) (((cfg0.win 3).blk t).view.emb (ix2 j n)) = _
  refine congrArg _ (funext fun a => Fin.ext ?_)
  obtain ⟨-, -, -, -, -, -, e0, e1, -⟩ := tile_pos t
  match a with
  | ⟨0, _⟩ => show win0_3.index t (0 : Fin 2) * 256 + 1 * j.val = D.val; rw [e0, hD]; omega
  | ⟨1, _⟩ => show win0_3.index t (1 : Fin 2) * 8192 + 1 * n.val = n.val; rw [e1]; omega

/-- The bias tile: its one row holds `b_i[n] + b_h[n]`. -/
theorem bias_tile (c : Dev nD) (t : Fin cfg0.N) (n : Fin 8192) :
    (iblk m c 4 t : Vec Ideal S1x8192 .f32) (ix2 (0 : Fin 1) n)
      = aBi m c (ix1 n) + aBh m c (ix1 n) := by
  unfold iblk
  rw [View.read_apply]
  show (V m c main_v1 : Vec Ideal S1x8192 .f32) (((cfg0.win 4).blk t).view.emb (ix2 (0 : Fin 1) n)) = _
  rw [staged_bias]
  have e : ((cfg0.win 4).blk t).view.emb (ix2 (0 : Fin 1) n) = (ix2 (0 : Fin 1) n : S1x8192.Idx) := by
    refine funext fun a => Fin.ext ?_
    obtain ⟨-, -, -, -, -, -, -, -, e0, e1, -⟩ := tile_pos t
    match a with
    | ⟨0, _⟩ => show win0_4.index t (0 : Fin 2) * 1 + 1 * 0 = 0; rw [e0]
    | ⟨1, _⟩ => show win0_4.index t (1 : Fin 2) * 8192 + 1 * n.val = n.val; rw [e1]; omega
  rw [e, shapeCast_a_1a_apply]
  rfl

/-- The cell-state tile: entry `(r, h)` is `c[256·(t/8) + r, h]`. -/
theorem c_tile (c : Dev nD) (t : Fin cfg0.N) (r : Fin 256) (h : Fin 2048) (R : Fin 4096)
    (hR : R.val = 256 * (t.val / 8) + r.val) :
    (iblk m c 5 t : Vec Ideal S256x2048 .f32) (ix2 r h) = aC m c (ix2 R h) := by
  unfold iblk
  rw [View.read_apply]
  show (V m c main_arg2 : Vec Ideal S4096x2048 .f32) (((cfg0.win 5).blk t).view.emb (ix2 r h)) = _
  rw [V_main_arg2]
  refine congrArg _ (funext fun a => Fin.ext ?_)
  obtain ⟨-, -, -, -, -, -, -, -, -, -, e0, e1, -⟩ := tile_pos t
  match a with
  | ⟨0, _⟩ => show win0_5.index t (0 : Fin 2) * 256 + 1 * r.val = R.val; rw [e0, hR]; omega
  | ⟨1, _⟩ => show win0_5.index t (1 : Fin 2) * 2048 + 1 * h.val = h.val; rw [e1]; omega

end Cert.KernelIdeal.Blocks

end
-- ==== Proof.PayloadAt.lean ====
/-
  The kernel body's arithmetic, read at one index.

  The body stores four values. The first is the bias row repeated down the 256 rows of the accumulator tile. The
  second is the accumulator plus two matrix products, each a sum of 256 products along the contracted axis. The
  third and fourth are the new cell state and the new hidden state of a tile: pointwise functions of four column
  quarters of the finished gate tile and of the old cell state. Each theorem below reads one of them at row `r` and
  column `n` (or `h`) and names the number found there: a bias entry, the accumulator entry plus two 256-term inner
  products, and the cell and hidden update of the specification applied to row `r` of the gate tile.
-/
import proofs.«165249_j54649163874591_1_alg».proof.Proof.Gen.KernelIdeal.Skeleton
import proofs.«165249_j54649163874591_1_alg».proof.Proof.LstmSpec
import Idealize.ShloMosaic.Lib.ValueIdx
import Idealize.ShloMosaic.Lib.Pipeline.Value
import Idealize.ShloMosaic.Lib.ValueLayout
import Idealize.ShloMosaic.PureOps.Ideal.Laws

noncomputable section

namespace Cert.LstmPayload

open Cert.KernelIdeal Cert.KernelIdeal.Gen Idealize.ShloMosaic Idealize.ShloMosaic.ValueIdx

/-! ## The bias row, repeated down the rows -/

/-- Row `r`, column `n` of the repeated bias row is the row's entry at column `n`. -/
theorem pay1_at (b : Vec Ideal S1x8192 .f32) (r : Fin 256) (n : Fin 8192) :
    k0_pay1 (F := Ideal) b (ix2 r n) = b (ix2 (0 : Fin 1) n) := by
  unfold k0_pay1
  show shapeCast S256x8192 (broadcastTo S256x8192 (shapeCast S1x8192 (shapeCast S1x8192 b shapeCasts_S1x8192_S1x8192)
    shapeCasts_S1x8192_S1x8192) broadcasts_S1x8192_S256x8192) shapeCasts_S256x8192_S256x8192 (ix2 r n) = _
  rw [shapeCast_self, shapeCast_self, shapeCast_self]
  refine broadcastTo_apply b broadcasts_S1x8192_S256x8192 (ix2 r n) (ix2 (0 : Fin 1) n) fun a => ?_
  match a with
  | ⟨0, _⟩ => rfl
  | ⟨1, _⟩ => rfl

/-! ## One matrix product at an index

The product contracts the second axis of the left operand with the first axis of the right one. Its contraction
index has one coordinate, which runs over the 256 terms; the left operand is read at (row, term) and the right at
(term, column). -/

theorem lhs_mm_0 (i : S256x8192.Idx) (q : dot_S256x256_S256x8192_S256x8192_1_0_0_1_n_n.contr.Idx) :
    (dot_S256x256_S256x8192_S256x8192_1_0_0_1_n_n.lhsIdx i q 0).val = (i 0).val := by
  unfold DotDims.lhsIdx
  rw [dif_neg (show ¬(0 : Fin S256x256.rank) ∈ dot_S256x256_S256x8192_S256x8192_1_0_0_1_n_n.lhsBatch by decide), dif_pos (show (0 : Fin S256x256.rank) ∈ dot_S256x256_S256x8192_S256x8192_1_0_0_1_n_n.lhsNonContracting by decide)]
  rfl
theorem lhs_mm_1 (i : S256x8192.Idx) (q : dot_S256x256_S256x8192_S256x8192_1_0_0_1_n_n.contr.Idx) :
    (dot_S256x256_S256x8192_S256x8192_1_0_0_1_n_n.lhsIdx i q 1).val = (q ⟨0, by decide⟩).val :=
  dot_S256x256_S256x8192_S256x8192_1_0_0_1_n_n.lhsIdx_val_of_single rfl i q
theorem rhs_mm_0 (i : S256x8192.Idx) (q : dot_S256x256_S256x8192_S256x8192_1_0_0_1_n_n.contr.Idx) :
    (dot_S256x256_S256x8192_S256x8192_1_0_0_1_n_n.rhsIdx i q 0).val = (q ⟨0, by decide⟩).val :=
  dot_S256x256_S256x8192_S256x8192_1_0_0_1_n_n.rhsIdx_val_of_single rfl i q
theorem rhs_mm_1 (i : S256x8192.Idx) (q : dot_S256x256_S256x8192_S256x8192_1_0_0_1_n_n.contr.Idx) :
    (dot_S256x256_S256x8192_S256x8192_1_0_0_1_n_n.rhsIdx i q 1).val = (i 1).val := by
  unfold DotDims.rhsIdx
  rw [dif_neg (show ¬(1 : Fin S256x8192.rank) ∈ dot_S256x256_S256x8192_S256x8192_1_0_0_1_n_n.rhsBatch by decide), dif_pos (show (1 : Fin S256x8192.rank) ∈ dot_S256x256_S256x8192_S256x8192_1_0_0_1_n_n.rhsNonContracting by decide)]
  rfl

/-- A matrix product into the zero tile, at row `r` and column `n`: the inner product of row `r` of the left operand
    with column `n` of the right one. -/
theorem matmul_at (x : FVec Ideal S256x256 .bf16) (w : FVec Ideal S256x8192 .bf16) (r : Fin 256) (n : Fin 8192) :
    matmul dot_S256x256_S256x8192_S256x8192_1_0_0_1_n_n none x w (constant (F := Ideal) S256x8192 .f32 0x00000000#32) (ix2 r n)
      = ∑ j : Fin 256, x (ix2 r j) * w (ix2 j n) := by
  refine (Ideal.matmul_constant_zero_apply dot_S256x256_S256x8192_S256x8192_1_0_0_1_n_n none x w (ix2 r n)).trans ?_
  rw [← Equiv.sum_comp (contrEquiv1 dot_S256x256_S256x8192_S256x8192_1_0_0_1_n_n 256 rfl rfl).symm]
  refine Finset.sum_congr rfl fun k _ => ?_
  have hk := contrEquiv1_symm_val dot_S256x256_S256x8192_S256x8192_1_0_0_1_n_n 256 rfl rfl k
  have el : dot_S256x256_S256x8192_S256x8192_1_0_0_1_n_n.lhsIdx (ix2 r n) ((contrEquiv1 dot_S256x256_S256x8192_S256x8192_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S256x256_S256x8192_S256x8192_1_0_0_1_n_n.rhsIdx (ix2 r n) ((contrEquiv1 dot_S256x256_S256x8192_S256x8192_1_0_0_1_n_n 256 rfl rfl).symm k) = ix2 k n := funext fun a => Fin.ext (by
    match a with
    | ⟨0, _⟩ => exact (rhs_mm_0 _ _).trans hk
    | ⟨1, _⟩ => exact rhs_mm_1 _ _)
  rw [el, er]

/-! ## The accumulator plus the two products -/

/-- Row `r`, column `n` of the accumulated tile: the accumulator's entry plus the two 256-term inner products. -/
theorem pay2_at (acc : Vec Ideal S256x8192 .f32) (xa : Vec Ideal S256x256 .bf16) (wa : Vec Ideal S256x8192 .bf16)
    (xh : Vec Ideal S256x256 .bf16) (wh : Vec Ideal S256x8192 .bf16) (r : Fin 256) (n : Fin 8192) :
    k0_pay2 (F := Ideal) acc xa wa xh wh (ix2 r n)
      = acc (ix2 r n) + ((∑ j : Fin 256, xa (ix2 r j) * wa (ix2 j n)) + (∑ j : Fin 256, xh (ix2 r j) * wh (ix2 j n))) := by
  unfold k0_pay2
  show shapeCast S256x8192 (addf acc (addf
      (matmul dot_S256x256_S256x8192_S256x8192_1_0_0_1_n_n none (shapeCast S256x256 xa shapeCasts_S256x256_S256x256)
        (shapeCast S256x8192 wa shapeCasts_S256x8192_S256x8192) (constant (F := Ideal) S256x8192 .f32 0x00000000#32))
      (matmul dot_S256x256_S256x8192_S256x8192_1_0_0_1_n_n none (shapeCast S256x256 xh shapeCasts_S256x256_S256x256)
        (shapeCast S256x8192 wh shapeCasts_S256x8192_S256x8192) (constant (F := Ideal) S256x8192 .f32 0x00000000#32))))
    shapeCasts_S256x8192_S256x8192 (ix2 r n) = _
  rw [shapeCast_self, shapeCast_self, shapeCast_self, shapeCast_self, shapeCast_self]
  show acc (ix2 r n) + (matmul dot_S256x256_S256x8192_S256x8192_1_0_0_1_n_n none xa wa (constant (F := Ideal) S256x8192 .f32 0x00000000#32) (ix2 r n)
    + matmul dot_S256x256_S256x8192_S256x8192_1_0_0_1_n_n none xh wh (constant (F := Ideal) S256x8192 .f32 0x00000000#32) (ix2 r n)) = _
  rw [matmul_at, matmul_at]

/-! ## The cell and hidden updates -/

/-- The column quarter that starts at `off`, at row `r` and column `h`: the gate tile at row `r`, column `off + h`. -/
theorem slice_at (off : ℕ) (hoff : off + 2048 ≤ 8192) (g : Vec Ideal S256x8192 .f32)
    (hs : S256x8192.Slices ![0, off] S256x2048) (r : Fin 256) (h : Fin 2048) :
    extractStridedSlice S256x2048 ![0, off] g hs (ix2 r h) = g (ix2 r (Cert.LstmSpec.col off hoff h)) := by
  refine extractStridedSlice_apply ![0, off] g hs (ix2 r h) (ix2 r (Cert.LstmSpec.col off hoff h)) fun a => ?_
  match a with
  | ⟨0, _⟩ => show r.val = 0 + r.val; omega
  | ⟨1, _⟩ => show off + h.val = off + h.val; rfl

/-- Row `r`, column `h` of the new cell state: the specification's cell update on row `r` of the gate tile. -/
theorem pay3_at (g : Vec Ideal S256x8192 .f32) (cOld : Vec Ideal S256x2048 .f32) (r : Fin 256) (h : Fin 2048) :
    k0_pay3 (F := Ideal) g cOld (ix2 r h) = Cert.LstmSpec.cellOf (fun n => g (ix2 r n)) (cOld (ix2 r h)) h := by
  unfold k0_pay3
  show Ideal.logistic (extractStridedSlice S256x2048 ![0, 2048] g slices_S256x8192_o0_2048_S256x2048 (ix2 r h)) * cOld (ix2 r h)
      + Ideal.logistic (extractStridedSlice S256x2048 ![0, 0] g slices_S256x8192_o0_0_S256x2048 (ix2 r h))
        * Ideal.tanh (extractStridedSlice S256x2048 ![0, 4096] g slices_S256x8192_o0_4096_S256x2048 (ix2 r h)) = _
  rw [slice_at 2048 (by omega), slice_at 0 (by omega), slice_at 4096 (by omega)]
  rfl

/-- Row `r`, column `h` of the new hidden state: the specification's hidden update on row `r` of the gate tile. -/
theorem pay4_at (g : Vec Ideal S256x8192 .f32) (cOld : Vec Ideal S256x2048 .f32) (r : Fin 256) (h : Fin 2048) :
    k0_pay4 (F := Ideal) g cOld (ix2 r h) = Cert.LstmSpec.hiddenOf (fun n => g (ix2 r n)) (cOld (ix2 r h)) h := by
  unfold k0_pay4
  show Ideal.logistic (extractStridedSlice S256x2048 ![0, 6144] g slices_S256x8192_o0_6144_S256x2048 (ix2 r h))
      * Ideal.tanh (k0_pay3 (F := Ideal) g cOld (ix2 r h)) = _
  rw [slice_at 6144 (by omega), pay3_at]
  rfl

end Cert.LstmPayload

end
-- ==== Proof.KernelValue.lean ====
/-
  What the kernel's two result arrays hold after the run.

  For one batch-row tile the grid visits eight consecutive points, one per stretch of 256 reduction terms. The
  scratch tile after a point is the fold of the body over the points of the run so far: the repeated bias row plus
  the partial products of the first stretch, then one more pair of partial products per point. Unrolled at an entry
  this is the summed biases plus a sum over the stretches visited; after the eighth point it is the gate
  pre-activation in its stretch-by-stretch arrangement, which is the one-piece arrangement. At that point the body
  turns the gate tile into the new hidden and cell tiles, and those are the only tiles written back; the sixteen
  batch-row tiles cover both result arrays.
-/
import proofs.«165249_j54649163874591_1_alg».proof.Proof.Gen.KernelIdeal.Value
import proofs.«165249_j54649163874591_1_alg».proof.Proof.LstmSpec
import proofs.«165249_j54649163874591_1_alg».proof.Proof.BodyPieces
import proofs.«165249_j54649163874591_1_alg».proof.Proof.Tiles
import proofs.«165249_j54649163874591_1_alg».proof.Proof.PayloadAt
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Cell

open Cert.KernelIdeal Cert.KernelIdeal.Gen Cert.KernelIdeal.Blocks

variable (m : (ℓ : Loc nD τ sig) → Buf (Elt Ideal) ℓ) (ρ : Dev nD → PrngReg)

/-! ## The tiles of a point, at their literal types -/

abbrev xT (c : Dev nD) (p : Fin cfg0.N) : Vec Ideal S256x256 .bf16 := iblk m c 0 p
abbrev hT (c : Dev nD) (p : Fin cfg0.N) : Vec Ideal S256x256 .bf16 := iblk m c 1 p
abbrev wiT (c : Dev nD) (p : Fin cfg0.N) : Vec Ideal S256x8192 .bf16 := iblk m c 2 p
abbrev whT (c : Dev nD) (p : Fin cfg0.N) : Vec Ideal S256x8192 .bf16 := iblk m c 3 p
abbrev bT (c : Dev nD) (p : Fin cfg0.N) : Vec Ideal S1x8192 .f32 := iblk m c 4 p
abbrev cT (c : Dev nD) (p : Fin cfg0.N) : Vec Ideal S256x2048 .f32 := iblk m c 5 p

/-! ## One step of the scratch tile -/

/-- At the first point of a run the scratch becomes the repeated bias row plus the point's partial products,
    whatever it held. -/
theorem step_first (c : Dev nD) (n : ℕ) (hb : n < cfg0.N) (h0 : n % 8 = 0) (acc : Vec Ideal S256x8192 .f32) :
    Value.scAt0_0 m c n hb acc
      = k0_pay2 (F := Ideal) (k0_pay1 (F := Ideal) (bT m c ⟨n, hb⟩)) (xT m c ⟨n, hb⟩) (wiT m c ⟨n, hb⟩) (hT m c ⟨n, hb⟩) (whT m c ⟨n, hb⟩) := by
  have h1 : ¬n % 8 = 7 := by omega
  unfold Value.scAt0_0
  rw [dif_pos h0, dif_neg h1]
  exact Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))

/-- At every later point it gains the point's partial products. -/
theorem step_later (c : Dev nD) (n : ℕ) (hb : n < cfg0.N) (h0 : ¬n % 8 = 0) (acc : Vec Ideal S256x8192 .f32) :
    Value.scAt0_0 m c n hb acc
      = k0_pay2 (F := Ideal) acc (xT m c ⟨n, hb⟩) (wiT m c ⟨n, hb⟩) (hT m c ⟨n, hb⟩) (whT m c ⟨n, hb⟩) := by
  unfold Value.scAt0_0
  rw [dif_neg h0]
  by_cases h1 : n % 8 = 7
  · rw [dif_pos h1]
    exact Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc
  · rw [dif_neg h1]
    exact Pieces.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc

/-! ## The fold, unrolled at an entry -/

/-- The two partial products of point `p` at row `r`, column `n` of the tile. -/
def addend (c : Dev nD) (p : Fin cfg0.N) (r : Fin 256) (n : Fin 8192) : EReal :=
  (∑ j : Fin 256, xT m c p (ix2 r j) * wiT m c p (ix2 j n)) + (∑ j : Fin 256, hT m c p (ix2 r j) * whT m c p (ix2 j n))

/-- The same for every natural number, zero past the grid. -/
def addendN (c : Dev nD) (k : ℕ) (i : S256x8192.Idx) : EReal :=
  if h : k < cfg0.N then addend m c ⟨k, h⟩ (i 0) (i 1) else 0

/-- The summed biases at the entry's column. -/
def biasAt (c : Dev nD) (i : S256x8192.Idx) : EReal := aBi m c (ix1 (i 1)) + aBh m c (ix1 (i 1))

theorem pay2_idx (acc : Vec Ideal S256x8192 .f32) (xa : Vec Ideal S256x256 .bf16) (wa : Vec Ideal S256x8192 .bf16)
    (xh : Vec Ideal S256x256 .bf16) (wh : Vec Ideal S256x8192 .bf16) (i : S256x8192.Idx) :
    k0_pay2 (F := Ideal) acc xa wa xh wh i
      = acc i + ((∑ j : Fin 256, xa (ix2 (i 0) j) * wa (ix2 j (i 1))) + (∑ j : Fin 256, xh (ix2 (i 0) j) * wh (ix2 j (i 1)))) := by
  obtain ⟨r, n, rfl⟩ : ∃ (r : Fin 256) (n : Fin 8192), i = ix2 r n := ⟨i 0, i 1, eq_ix2 i⟩
  exact Cert.LstmPayload.pay2_at acc xa wa xh wh r n

theorem pay1_idx (b : Vec Ideal S1x8192 .f32) (i : S256x8192.Idx) :
    k0_pay1 (F := Ideal) b i = b (ix2 (0 : Fin 1) (i 1)) := by
  obtain ⟨r, n, rfl⟩ : ∃ (r : Fin 256) (n : Fin 8192), i = ix2 r n := ⟨i 0, i 1, eq_ix2 i⟩
  exact Cert.LstmPayload.pay1_at b r n

/-- The scratch tile after point `t`, at an entry: the summed biases plus the partial products of the points of
    `t`'s run up to `t`. -/
theorem scratch_at (c : Dev nD) (t : Fin cfg0.N) (i : S256x8192.Idx) :
    (outsAt0 m c t.val t.isLt).2.2 i
      = biasAt m c i + ∑ s ∈ Finset.range (t.val % 8 + 1), addendN m c (8 * (t.val / 8) + s) i := by
  have hN : cfg0.N = 128 := N_0
  have ht : t.val < 128 := lt_of_lt_of_eq t.isLt hN
  rw [Value.soutsAt0_0_eq m c t]
  refine Pipeline.accAt_add_apply (β := EReal) _ _ (biasAt m c) (addendN m c) (8 * (t.val / 8)) 7 ?_ ?_ (t.val % 8) (by omega) _ i
  · intro h i
    show Value.scAt0_0 m c _ h _ i = _
    have hb : bT m c ⟨_, h⟩ (ix2 (0 : Fin 1) (i 1)) = aBi m c (ix1 (i 1)) + aBh m c (ix1 (i 1)) :=
      Blocks.bias_tile m c ⟨_, h⟩ (i 1)
    rw [step_first m c _ h (by omega), pay2_idx, pay1_idx, hb]
    unfold biasAt addendN addend
    rw [dif_pos h]
  · intro n h acc i hlt hle
    show Value.scAt0_0 m c n h acc i = _
    rw [step_later m c n h (by omega) acc, pay2_idx]
    unfold addendN addend
    rw [dif_pos h]

/-- After the eighth point of a run the scratch tile holds the gate pre-activations of its 256 batch rows. -/
theorem gate_tile (c : Dev nD) (t : Fin cfg0.N) (h7 : t.val % 8 = 7) (r : Fin 256) (n : Fin 8192) (R : Fin 4096)
    (hR : R.val = 256 * (t.val / 8) + r.val) :
    (outsAt0 m c t.val t.isLt).2.2 (ix2 r n) = Cert.LstmSpec.gateWhole (aX m c) (aH m c) (aWi m c) (aWh m c) (aBi m c) (aBh m c) R n := by
  have hN : cfg0.N = 128 := N_0
  have ht : t.val < 128 := lt_of_lt_of_eq t.isLt hN
  have e8 : t.val % 8 + 1 = 8 := by omega
  rw [scratch_at, e8, ← Cert.LstmSpec.gateStretched_eq_gateWhole, Finset.sum_range]
  unfold Cert.LstmSpec.gateStretched biasAt
  refine congrArg (fun z => (aBi m c (ix1 n) + aBh m c (ix1 n)) + z) (Finset.sum_congr rfl fun s _ => ?_)
  have hs8 : s.val < 8 := s.isLt
  have hs : 8 * (t.val / 8) + s.val < cfg0.N := by omega
  have key : addendN m c (8 * (t.val / 8) + s.val) (ix2 r n) = addend m c ⟨8 * (t.val / 8) + s.val, hs⟩ r n := by
    unfold addendN
    rw [dif_pos hs]
  rw [key]
  unfold addend Cert.LstmSpec.stretchTerm
  have hr : r.val < 256 := r.isLt
  congr 1 <;> refine Finset.sum_congr rfl fun j _ => ?_
  · have hj : j.val < 256 := j.isLt
    have hx : xT m c ⟨8 * (t.val / 8) + s.val, hs⟩ (ix2 r j) = aX m c (ix2 R (Cert.LstmSpec.term s j)) :=
      Blocks.x_tile m c ⟨_, hs⟩ r j R (Cert.LstmSpec.term s j)
        (by show R.val = 256 * ((8 * (t.val / 8) + s.val) / 8) + r.val; omega)
        (by show 256 * s.val + j.val = 256 * ((8 * (t.val / 8) + s.val) % 8) + j.val; omega)
    have hw : wiT m c ⟨8 * (t.val / 8) + s.val, hs⟩ (ix2 j n) = aWi m c (ix2 (Cert.LstmSpec.term s j) n) :=
      Blocks.wi_tile m c ⟨_, hs⟩ j n (Cert.LstmSpec.term s j)
        (by show 256 * s.val + j.val = 256 * ((8 * (t.val / 8) + s.val) % 8) + j.val; omega)
    rw [hx, hw]
  · have hj : j.val < 256 := j.isLt
    have hx : hT m c ⟨8 * (t.val / 8) + s.val, hs⟩ (ix2 r j) = aH m c (ix2 R (Cert.LstmSpec.term s j)) :=
      Blocks.h_tile m c ⟨_, hs⟩ r j R (Cert.LstmSpec.term s j)
        (by show R.val = 256 * ((8 * (t.val / 8) + s.val) / 8) + r.val; omega)
        (by show 256 * s.val + j.val = 256 * ((8 * (t.val / 8) + s.val) % 8) + j.val; omega)
    have hw : whT m c ⟨8 * (t.val / 8) + s.val, hs⟩ (ix2 j n) = aWh m c (ix2 (Cert.LstmSpec.term s j) n) :=
      Blocks.wh_tile m c ⟨_, hs⟩ j n (Cert.LstmSpec.term s j)
        (by show 256 * s.val + j.val = 256 * ((8 * (t.val / 8) + s.val) % 8) + j.val; omega)
    rw [hx, hw]

/-! ## The two result arrays -/

/-- At a last reduction step the hidden tile is its update applied to the finished gate tile. -/
theorem hidden_tile (c : Dev nD) (t : Fin cfg0.N) (h0 : ¬t.val % 8 = 0) (h7 : t.val % 8 = 7) :
    (outsAt0 m c t.val t.isLt).1 = k0_pay4 (F := Ideal) ((outsAt0 m c t.val t.isLt).2.2) (cT m c t) := by
  rw [outsAt0_C m c t h0 h7]
  dsimp only
  rw [Pieces.hidden_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ (iblk m c 0 t) (iblk m c 1 t) (iblk m c 2 t) (iblk m c 3 t) (iblk m c 4 t) (iblk m c 5 t) _,
    Pieces.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ (iblk m c 0 t) (iblk m c 1 t) (iblk m c 2 t) (iblk m c 3 t) (iblk m c 4 t) (iblk m c 5 t) _]

/-- What a last reduction step writes back to the hidden array is the tile of the specification's hidden array
    that the step's window names. -/
theorem flushed_hidden (c : Dev nD) (t : Fin cfg0.N) (hf : (cfg0.win 6).flush t = true) :
    (dats m 0 c).flushed 6 t = ((cfg0.win 6).blk t).view.read (Elt Ideal) (Cert.LstmSpec.hiddenArr (aX m c) (aH m c) (aC m c) (aWi m c) (aWh m c) (aBi m c) (aBh m c)) := by
  have h7 : t.val % 8 = 7 := (flush0_6 t).mp hf
  rw [Value.flushed6, hidden_tile m c t (by omega) h7]
  funext y
  have hy0 : (y 0).val < 256 := (y 0).isLt
  have hy1 : (y 1).val < 2048 := (y 1).isLt
  have hN : t.val < 128 := lt_of_lt_of_eq t.isLt (show cfg0.N = 128 from N_0)
  let r : Fin 256 := ⟨(y 0).val, hy0⟩
  let h : Fin 2048 := ⟨(y 1).val, hy1⟩
  let R : Fin 4096 := ⟨256 * (t.val / 8) + (y 0).val, by omega⟩
  have hR : R.val = 256 * (t.val / 8) + r.val := rfl
  show k0_pay4 (F := Ideal) ((outsAt0 m c t.val t.isLt).2.2) (cT m c t) ((cfg0.win 6).xinj (grid0.coords t) y)
    = Cert.LstmSpec.hiddenArr (aX m c) (aH m c) (aC m c) (aWi m c) (aWh m c) (aBi m c) (aBh m c) (((cfg0.win 6).blk t).view.emb y)
  have hJ : ((cfg0.win 6).xinj (grid0.coords t) y : S256x2048.Idx) = ix2 r h := by
    funext a
    match a with
    | ⟨0, _⟩ => rfl
    | ⟨1, _⟩ => rfl
  have hE : (((cfg0.win 6).blk t).view.emb y : S4096x2048.Idx) = ix2 R h := by
    refine funext fun a => Fin.ext ?_
    obtain ⟨-, -, -, -, -, -, -, -, -, -, -, -, e60, e61, e70, e71⟩ := Blocks.tile_pos t
    match a with
    | ⟨0, _⟩ => show win0_6.index t (0 : Fin 2) * 256 + 1 * (y 0).val = 256 * (t.val / 8) + (y 0).val; rw [e60]; omega
    | ⟨1, _⟩ => show win0_6.index t (1 : Fin 2) * 2048 + 1 * (y 1).val = (y 1).val; rw [e61]; omega
  rw [hJ, hE, Cert.LstmPayload.pay4_at]
  have hc : cT m c t (ix2 r h) = aC m c (ix2 R h) := Blocks.c_tile m c t r h R hR
  rw [hc]
  show Cert.LstmSpec.hiddenOf _ _ h = Cert.LstmSpec.hiddenOf (Cert.LstmSpec.gateWhole (aX m c) (aH m c) (aWi m c) (aWh m c) (aBi m c) (aBh m c) R) (aC m c (ix2 R h)) h
  refine congrArg (fun g => Cert.LstmSpec.hiddenOf g (aC m c (ix2 R h)) h) (funext fun n => ?_)
  exact gate_tile m c t h7 r n R hR

/-- Every entry of the hidden array lies in the tile of the last reduction step of its batch-row tile. -/
theorem cover_hidden (i : S4096x2048.Idx) :
    ∃ t : Fin cfg0.N, (cfg0.win 6).flush t = true ∧ i ∈ ((cfg0.win 6).blk t).view.set := by
  have hi0 : (i 0).val < 4096 := (i 0).isLt
  have hi1 : (i 1).val < 2048 := (i 1).isLt
  have hN : cfg0.N = 128 := N_0
  let t : Fin cfg0.N := ⟨8 * ((i 0).val / 256) + 7, by omega⟩
  have ht : t.val = 8 * ((i 0).val / 256) + 7 := rfl
  refine ⟨t, (flush0_6 t).mpr (by omega), ?_⟩
  show i ∈ ((View.whole main_v6_0).slice (win0_6.rect t)).set
  rw [View.set_slice_whole, Rect.mem_set_unit]
  obtain ⟨-, -, -, -, -, -, -, -, -, -, -, -, e60, e61, e70, e71⟩ := Blocks.tile_pos t
  intro a
  match a with
  | ⟨0, _⟩ =>
    show win0_6.index t (0 : Fin 2) * 256 ≤ (i 0).val ∧ (i 0).val < win0_6.index t (0 : Fin 2) * 256 + 256
    rw [e60]; omega
  | ⟨1, _⟩ =>
    show win0_6.index t (1 : Fin 2) * 2048 ≤ (i 1).val ∧ (i 1).val < win0_6.index t (1 : Fin 2) * 2048 + 2048
    rw [e61]; omega

/-- So the hidden array ends at the specification's. -/
theorem final_hidden (c : Dev nD) :
    (dats m 0 c).arrAt 6 cfg0.N = Cert.LstmSpec.hiddenArr (aX m c) (aH m c) (aC m c) (aWi m c) (aWh m c) (aBi m c) (aBh m c) :=
  (dats m 0 c).arrAt_eq_of_cover 6 (Cert.LstmSpec.hiddenArr (aX m c) (aH m c) (aC m c) (aWi m c) (aWh m c) (aBi m c) (aBh m c)) (flushed_hidden m c) cover_hidden

/-- At a last reduction step the cell tile is its update applied to the finished gate tile. -/
theorem cell_tile (c : Dev nD) (t : Fin cfg0.N) (h0 : ¬t.val % 8 = 0) (h7 : t.val % 8 = 7) :
    (outsAt0 m c t.val t.isLt).2.1 = k0_pay3 (F := Ideal) ((outsAt0 m c t.val t.isLt).2.2) (cT m c t) := by
  rw [outsAt0_C m c t h0 h7]
  dsimp only
  rw [Pieces.cell_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ (iblk m c 0 t) (iblk m c 1 t) (iblk m c 2 t) (iblk m c 3 t) (iblk m c 4 t) (iblk m c 5 t) _,
    Pieces.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) _ _ (iblk m c 0 t) (iblk m c 1 t) (iblk m c 2 t) (iblk m c 3 t) (iblk m c 4 t) (iblk m c 5 t) _]

/-- What a last reduction step writes back to the cell array is the tile of the specification's cell array
    that the step's window names. -/
theorem flushed_cell (c : Dev nD) (t : Fin cfg0.N) (hf : (cfg0.win 7).flush t = true) :
    (dats m 0 c).flushed 7 t = ((cfg0.win 7).blk t).view.read (Elt Ideal) (Cert.LstmSpec.cellArr (aX m c) (aH m c) (aC m c) (aWi m c) (aWh m c) (aBi m c) (aBh m c)) := by
  have h7 : t.val % 8 = 7 := (flush0_7 t).mp hf
  rw [Value.flushed7, cell_tile m c t (by omega) h7]
  funext y
  have hy0 : (y 0).val < 256 := (y 0).isLt
  have hy1 : (y 1).val < 2048 := (y 1).isLt
  have hN : t.val < 128 := lt_of_lt_of_eq t.isLt (show cfg0.N = 128 from N_0)
  let r : Fin 256 := ⟨(y 0).val, hy0⟩
  let h : Fin 2048 := ⟨(y 1).val, hy1⟩
  let R : Fin 4096 := ⟨256 * (t.val / 8) + (y 0).val, by omega⟩
  have hR : R.val = 256 * (t.val / 8) + r.val := rfl
  show k0_pay3 (F := Ideal) ((outsAt0 m c t.val t.isLt).2.2) (cT m c t) ((cfg0.win 7).xinj (grid0.coords t) y)
    = Cert.LstmSpec.cellArr (aX m c) (aH m c) (aC m c) (aWi m c) (aWh m c) (aBi m c) (aBh m c) (((cfg0.win 7).blk t).view.emb y)
  have hJ : ((cfg0.win 7).xinj (grid0.coords t) y : S256x2048.Idx) = ix2 r h := by
    funext a
    match a with
    | ⟨0, _⟩ => rfl
    | ⟨1, _⟩ => rfl
  have hE : (((cfg0.win 7).blk t).view.emb y : S4096x2048.Idx) = ix2 R h := by
    refine funext fun a => Fin.ext ?_
    obtain ⟨-, -, -, -, -, -, -, -, -, -, -, -, e60, e61, e70, e71⟩ := Blocks.tile_pos t
    match a with
    | ⟨0, _⟩ => show win0_7.index t (0 : Fin 2) * 256 + 1 * (y 0).val = 256 * (t.val / 8) + (y 0).val; rw [e70]; omega
    | ⟨1, _⟩ => show win0_7.index t (1 : Fin 2) * 2048 + 1 * (y 1).val = (y 1).val; rw [e71]; omega
  rw [hJ, hE, Cert.LstmPayload.pay3_at]
  have hc : cT m c t (ix2 r h) = aC m c (ix2 R h) := Blocks.c_tile m c t r h R hR
  rw [hc]
  show Cert.LstmSpec.cellOf _ _ h = Cert.LstmSpec.cellOf (Cert.LstmSpec.gateWhole (aX m c) (aH m c) (aWi m c) (aWh m c) (aBi m c) (aBh m c) R) (aC m c (ix2 R h)) h
  refine congrArg (fun g => Cert.LstmSpec.cellOf g (aC m c (ix2 R h)) h) (funext fun n => ?_)
  exact gate_tile m c t h7 r n R hR

/-- Every entry of the cell array lies in the tile of the last reduction step of its batch-row tile. -/
theorem cover_cell (i : S4096x2048.Idx) :
    ∃ t : Fin cfg0.N, (cfg0.win 7).flush t = true ∧ i ∈ ((cfg0.win 7).blk t).view.set := by
  have hi0 : (i 0).val < 4096 := (i 0).isLt
  have hi1 : (i 1).val < 2048 := (i 1).isLt
  have hN : cfg0.N = 128 := N_0
  let t : Fin cfg0.N := ⟨8 * ((i 0).val / 256) + 7, by omega⟩
  have ht : t.val = 8 * ((i 0).val / 256) + 7 := rfl
  refine ⟨t, (flush0_7 t).mpr (by omega), ?_⟩
  show i ∈ ((View.whole main_v6_1).slice (win0_7.rect t)).set
  rw [View.set_slice_whole, Rect.mem_set_unit]
  obtain ⟨-, -, -, -, -, -, -, -, -, -, -, -, e60, e61, e70, e71⟩ := Blocks.tile_pos t
  intro a
  match a with
  | ⟨0, _⟩ =>
    show win0_7.index t (0 : Fin 2) * 256 ≤ (i 0).val ∧ (i 0).val < win0_7.index t (0 : Fin 2) * 256 + 256
    rw [e70]; omega
  | ⟨1, _⟩ =>
    show win0_7.index t (1 : Fin 2) * 2048 ≤ (i 1).val ∧ (i 1).val < win0_7.index t (1 : Fin 2) * 2048 + 2048
    rw [e71]; omega

/-- So the cell array ends at the specification's. -/
theorem final_cell (c : Dev nD) :
    (dats m 0 c).arrAt 7 cfg0.N = Cert.LstmSpec.cellArr (aX m c) (aH m c) (aC m c) (aWi m c) (aWh m c) (aBi m c) (aBh m c) :=
  (dats m 0 c).arrAt_eq_of_cover 7 (Cert.LstmSpec.cellArr (aX m c) (aH m c) (aC m c) (aWi m c) (aWh m c) (aBi m c) (aBh m c)) (flushed_cell m c) cover_cell

/-! ## The run, read -/

/-- Every execution of the idealized kernel program ends with the hidden-state and cell-state arrays at the
    specification's functions of the arguments, and the arguments unchanged. -/
theorem run : θ_run defs (onTc (τ := τ) (main (F := Ideal))) ⟨m, fun _ => 0, ρ⟩ fun r => ∀ c : Dev nD,
      r.2.mem ((c : Thread nD τ).loc main_v6_0) = Cert.LstmSpec.hiddenArr (aX m c) (aH m c) (aC m c) (aWi m c) (aWh m c) (aBi m c) (aBh m c)
      ∧ r.2.mem ((c : Thread nD τ).loc main_v6_1) = Cert.LstmSpec.cellArr (aX m c) (aH m c) (aC m c) (aWi m c) (aWh m c) (aBi m c) (aBh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c), (h c).2.1.trans (final_cell m c), (h c).2.2⟩)
    (Value.run_blocks (F := Ideal) m ρ)

end Cert.KernelIdeal.Cell

end
-- ==== Proof.RefIsSpec.lean ====
/-
  The reference program computes the specification.

  The reference forms the gate pre-activations as two inner products over all 2048 terms, added, then the two bias
  vectors added one after the other: that is `gateWhole` entry by entry. It cuts the row of 8192 pre-activations into
  four quarters of 2048 columns, takes `1 / (1 + exp (-x))` of the first, second and fourth quarter and `tanh` of the
  third, and combines them with the old cell state:
  `c' = σ(f)·c + σ(i)·tanh(g)`, `h' = σ(o)·tanh(c')`.
  Over the extended reals `1 / (1 + exp (-x))` is the logistic function by definition, once the constant's bit
  pattern `0x3F800000` is read as the number one.
-/
import proofs.«165249_j54649163874591_1_alg».proof.Proof.Gen.ReferenceIdeal.Read
import proofs.«165249_j54649163874591_1_alg».proof.Proof.LstmSpec

noncomputable section

namespace Cert.LstmRef

open Cert.ReferenceIdeal Cert.ReferenceIdeal.Read Idealize.ShloMosaic Idealize.ShloMosaic.ValueIdx Cert.LstmSpec

/-! ### The constant and the logistic function -/

/-- The single-precision pattern `0x3F800000` denotes the number one. -/
theorem one_f32 : Ideal.ofBits .f32 0x3F800000#32 = 1 := IdealRules.sign_bit.ideal_onePat .f32

/-- `1 / (1 + exp (-x))`, spelled with the host's negation, exponential, addition and division and with both ones
    given by their bit pattern, is the logistic function. -/
theorem logistic_spelled (x : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf x)))
      = Ideal.logistic x := by
  rw [Ideal.ofBits_def, one_f32]
  rfl

/-! ### The gate pre-activations -/

/-- Entry `(b, n)` of the reference's pre-activation array is `gateWhole` at batch row `b` and column `n`. -/
theorem gate_eq (x0 x1 : (⟨S4096x2048, .f32⟩ : BufTy).Contents (Elt Ideal)) (x3 x4 : (⟨S2048x8192, .f32⟩ : BufTy).Contents (Elt Ideal)) (x5 x6 : (⟨S8192, .f32⟩ : BufTy).Contents (Elt Ideal)) (i : S4096x8192.Idx) :
    Read.val_main_v8 (F := Ideal) x0 x1 x3 x4 x5 x6 i = Cert.LstmSpec.gateWhole x0 x1 x3 x4 x5 x6 (i 0) (i 1) := by
  -- the inner products read row `i 0` of the left operand and column `i 1` of the right one
  have hl0 : ∀ k : Fin 2048, lidx_main_v0 i k = ix2 (i 0) k := fun k => by
    funext a; match a with | ⟨0, _⟩ => rfl | ⟨1, _⟩ => rfl
  have hr0 : ∀ k : Fin 2048, ridx_main_v0 i k = ix2 k (i 1) := fun k => by
    funext a; match a with | ⟨0, _⟩ => rfl | ⟨1, _⟩ => rfl
  have hl1 : ∀ k : Fin 2048, lidx_main_v1 i k = ix2 (i 0) k := fun k => by
    funext a; match a with | ⟨0, _⟩ => rfl | ⟨1, _⟩ => rfl
  have hr1 : ∀ k : Fin 2048, ridx_main_v1 i k = ix2 k (i 1) := fun k => by
    funext a; match a with | ⟨0, _⟩ => rfl | ⟨1, _⟩ => rfl
  -- each bias, broadcast along the batch axis, is read at column `i 1`
  have hb5 : idx_main_v3 (idx_main_v4 i) = ix1 (i 1) := by
    funext a; match a with | ⟨0, _⟩ => rfl
  have hb6 : idx_main_v6 (idx_main_v7 i) = ix1 (i 1) := by
    funext a; match a with | ⟨0, _⟩ => rfl
  rw [val_main_v8_apply, val_main_v5_apply, val_main_v2_apply, val_main_v0_apply, val_main_v1_apply,
    val_main_v4_apply, val_main_v3_apply, val_main_v7_apply, val_main_v6_apply]
  simp only [Ideal.addf_def, hl0, hr0, hl1, hr1, hb5, hb6]
  rfl

/-! ### The four quarters of a gate row -/

/-- The first slice reads column `h`. -/
theorem idx9 (i : S4096x2048.Idx) : idx_main_v9 i = ix2 (i 0) (col 0 (by omega) (i 1)) := by
  funext a
  match a with
  | ⟨0, _⟩ => rfl
  | ⟨1, _⟩ => exact Fin.ext (Nat.zero_add _).symm

/-- The second slice reads column `2048 + h`. -/
theorem idx10 (i : S4096x2048.Idx) : idx_main_v10 i = ix2 (i 0) (col 2048 (by omega) (i 1)) := by
  funext a; match a with | ⟨0, _⟩ => rfl | ⟨1, _⟩ => rfl

/-- The third slice reads column `4096 + h`. -/
theorem idx11 (i : S4096x2048.Idx) : idx_main_v11 i = ix2 (i 0) (col 4096 (by omega) (i 1)) := by
  funext a; match a with | ⟨0, _⟩ => rfl | ⟨1, _⟩ => rfl

/-- The fourth slice reads column `6144 + h`. -/
theorem idx12 (i : S4096x2048.Idx) : idx_main_v12 i = ix2 (i 0) (col 6144 (by omega) (i 1)) := by
  funext a; match a with | ⟨0, _⟩ => rfl | ⟨1, _⟩ => rfl

/-! ### The four gates -/

/-- The input gate: the logistic function of the first quarter. -/
theorem gate_i (x0 x1 : (⟨S4096x2048, .f32⟩ : BufTy).Contents (Elt Ideal)) (x3 x4 : (⟨S2048x8192, .f32⟩ : BufTy).Contents (Elt Ideal)) (x5 x6 : (⟨S8192, .f32⟩ : BufTy).Contents (Elt Ideal)) (i : S4096x2048.Idx) :
    val_main_v18 (F := Ideal) x0 x1 x3 x4 x5 x6 i
      = Ideal.logistic (gateWhole x0 x1 x3 x4 x5 x6 (i 0) (col 0 (by omega) (i 1))) := by
  rw [val_main_v18_apply, val_main_v17_apply, val_main_cst_0_apply, val_main_v16_apply, val_main_v15_apply,
    val_main_cst_apply, val_main_v14_apply, val_main_v13_apply, logistic_spelled, val_main_v9_apply, idx9]
  exact congrArg Ideal.logistic (gate_eq x0 x1 x3 x4 x5 x6 _)

/-- The forget gate: the logistic function of the second quarter. -/
theorem gate_f (x0 x1 : (⟨S4096x2048, .f32⟩ : BufTy).Contents (Elt Ideal)) (x3 x4 : (⟨S2048x8192, .f32⟩ : BufTy).Contents (Elt Ideal)) (x5 x6 : (⟨S8192, .f32⟩ : BufTy).Contents (Elt Ideal)) (i : S4096x2048.Idx) :
    val_main_v24 (F := Ideal) x0 x1 x3 x4 x5 x6 i
      = Ideal.logistic (gateWhole x0 x1 x3 x4 x5 x6 (i 0) (col 2048 (by omega) (i 1))) := by
  rw [val_main_v24_apply, val_main_v23_apply, val_main_cst_2_apply, val_main_v22_apply, val_main_v21_apply,
    val_main_cst_1_apply, val_main_v20_apply, val_main_v19_apply, logistic_spelled, val_main_v10_apply, idx10]
  exact congrArg Ideal.logistic (gate_eq x0 x1 x3 x4 x5 x6 _)

/-- The candidate: the hyperbolic tangent of the third quarter. -/
theorem gate_g (x0 x1 : (⟨S4096x2048, .f32⟩ : BufTy).Contents (Elt Ideal)) (x3 x4 : (⟨S2048x8192, .f32⟩ : BufTy).Contents (Elt Ideal)) (x5 x6 : (⟨S8192, .f32⟩ : BufTy).Contents (Elt Ideal)) (i : S4096x2048.Idx) :
    val_main_v25 (F := Ideal) x0 x1 x3 x4 x5 x6 i
      = Ideal.tanh (gateWhole x0 x1 x3 x4 x5 x6 (i 0) (col 4096 (by omega) (i 1))) := by
  rw [val_main_v25_apply, val_main_v11_apply, idx11]
  exact congrArg Ideal.tanh (gate_eq x0 x1 x3 x4 x5 x6 _)

/-- The output gate: the logistic function of the fourth quarter. -/
theorem gate_o (x0 x1 : (⟨S4096x2048, .f32⟩ : BufTy).Contents (Elt Ideal)) (x3 x4 : (⟨S2048x8192, .f32⟩ : BufTy).Contents (Elt Ideal)) (x5 x6 : (⟨S8192, .f32⟩ : BufTy).Contents (Elt Ideal)) (i : S4096x2048.Idx) :
    val_main_v31 (F := Ideal) x0 x1 x3 x4 x5 x6 i
      = Ideal.logistic (gateWhole x0 x1 x3 x4 x5 x6 (i 0) (col 6144 (by omega) (i 1))) := by
  rw [val_main_v31_apply, val_main_v30_apply, val_main_cst_4_apply, val_main_v29_apply, val_main_v28_apply,
    val_main_cst_3_apply, val_main_v27_apply, val_main_v26_apply, logistic_spelled, val_main_v12_apply, idx12]
  exact congrArg Ideal.logistic (gate_eq x0 x1 x3 x4 x5 x6 _)

/-! ### The two results -/

/-- The reference's first result is the specification's new cell state. -/
theorem cell_eq (x0 x1 x2 : (⟨S4096x2048, .f32⟩ : BufTy).Contents (Elt Ideal)) (x3 x4 : (⟨S2048x8192, .f32⟩ : BufTy).Contents (Elt Ideal)) (x5 x6 : (⟨S8192, .f32⟩ : BufTy).Contents (Elt Ideal)) :
    Read.val_main_v34 (F := Ideal) x0 x1 x2 x3 x4 x5 x6 = Cert.LstmSpec.cellArr x0 x1 x2 x3 x4 x5 x6 := by
  funext i
  rw [val_main_v34_apply, val_main_v32_apply, val_main_v33_apply, gate_f, gate_i, gate_g]
  rfl

/-- The reference's second result is the specification's new hidden state. -/
theorem hidden_eq (x0 x1 x2 : (⟨S4096x2048, .f32⟩ : BufTy).Contents (Elt Ideal)) (x3 x4 : (⟨S2048x8192, .f32⟩ : BufTy).Contents (Elt Ideal)) (x5 x6 : (⟨S8192, .f32⟩ : BufTy).Contents (Elt Ideal)) :
    Read.val_main_v36 (F := Ideal) x0 x1 x2 x3 x4 x5 x6 = Cert.LstmSpec.hiddenArr x0 x1 x2 x3 x4 x5 x6 := by
  funext i
  rw [val_main_v36_apply, val_main_v35_apply, gate_o, cell_eq]
  rfl

end Cert.LstmRef

end
-- ==== Proof.lean ====
/-
  One LSTM cell step: a Pallas kernel against its jnp reference, over the extended reals.

  The kernel walks a 16 × 8 grid. For each tile of 256 batch rows it accumulates the 8192 gate pre-activations in a
  scratch tile over eight stretches of 256 reduction terms, starting from the summed biases, and at the eighth
  stretch applies the gate functions and writes the new hidden and cell tiles. The reference takes the two matrix
  products whole, adds the biases one after the other, and applies the same gate functions, its logistic function
  spelled `1 / (1 + exp (-x))`.

  Both programs end at the specification's arrays (Proof/LstmSpec.lean): the kernel by unrolling the fold of its
  scratch tile (Proof/KernelValue.lean over Proof/BodyPieces.lean, Proof/Tiles.lean, Proof/PayloadAt.lean), the
  reference operation by operation (Proof/RefIsSpec.lean). The only law between the two arrangements is that
  addition on the extended reals is commutative and associative, so the inputs' finiteness is never used. The three
  programs terminate without a fault and leave their arguments unchanged; the idealization rewrote nothing.
-/
import proofs.«165249_j54649163874591_1_alg».proof.Defs
import proofs.«165249_j54649163874591_1_alg».proof.Proof.Gen.Kernel
import proofs.«165249_j54649163874591_1_alg».proof.Proof.Gen.Kernel.Skeleton
import proofs.«165249_j54649163874591_1_alg».proof.Proof.Gen.Kernel.Launch
import proofs.«165249_j54649163874591_1_alg».proof.Proof.Gen.Kernel.Points
import proofs.«165249_j54649163874591_1_alg».proof.Proof.Gen.Kernel.Frame
import proofs.«165249_j54649163874591_1_alg».proof.Proof.Gen.KernelIdeal
import proofs.«165249_j54649163874591_1_alg».proof.Proof.Gen.KernelIdeal.Skeleton
import proofs.«165249_j54649163874591_1_alg».proof.Proof.Gen.KernelIdeal.Launch
import proofs.«165249_j54649163874591_1_alg».proof.Proof.Gen.KernelIdeal.Points
import proofs.«165249_j54649163874591_1_alg».proof.Proof.Gen.KernelIdeal.Frame
import proofs.«165249_j54649163874591_1_alg».proof.Proof.Gen.ReferenceIdeal
import proofs.«165249_j54649163874591_1_alg».proof.Proof.Gen.Pre_finite_inputs
import proofs.«165249_j54649163874591_1_alg».proof.Proof.Gen.KernelIdeal.Value
import proofs.«165249_j54649163874591_1_alg».proof.Proof.Gen.ReferenceIdeal.Run
import proofs.«165249_j54649163874591_1_alg».proof.Proof.Gen.ReferenceIdeal.Read
import proofs.«165249_j54649163874591_1_alg».proof.Proof.KernelValue
import proofs.«165249_j54649163874591_1_alg».proof.Proof.RefIsSpec
import Idealize.ShloMosaic.Adequacy
import Idealize.ShloMosaic.Init

noncomputable section

namespace Cert.Proof

open Idealize.ShloMosaic Idealize.SL.Sem

/-- The word-level kernel program terminates, faults nowhere and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of array operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From arguments that agree, the kernel's hidden and cell arrays and the reference's are the specification's
    arrays of the same arguments. -/
theorem algebraic : Cert.algebraic_KernelIdeal_ReferenceIdeal := by
  intro m ρ m' ρ' _ hagree
  refine ⟨_, _, Cert.KernelIdeal.Cell.run m ρ, ?_⟩
  refine (θ_run Cert.ReferenceIdeal.defs _ _).mono (fun _ h c => ⟨?_, ?_, (h c).2.2⟩)
    (Cert.ReferenceIdeal.Value.run (F := Ideal) m' ρ')
  · obtain ⟨e0, e1, e2, e3, e4, e5, e6⟩ := hagree c
    rw [(h c).1, Cert.ReferenceIdeal.Read.val_main_v36_eq, Cert.LstmRef.hidden_eq, e0, e1, e2, e3, e4, e5, e6]
  · obtain ⟨e0, e1, e2, e3, e4, e5, e6⟩ := hagree c
    rw [(h c).2.1, Cert.ReferenceIdeal.Read.val_main_v34_eq, Cert.LstmRef.cell_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
